-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4x2048x4096, .f32⟩
  | .hbm, ⟨5, _⟩ => ⟨S1x1x4096, .f32⟩
  | .hbm, ⟨6, _⟩ => ⟨S4x2048x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, case by case, as the body's stored values.

  The body has three control cases along the contraction axis of the grid. At the first stretch it stores the zero
  block into the accumulator and then the accumulate step of that zero block; at a middle stretch it stores the
  accumulate step of what the accumulator held; at the last stretch it does the same and then stores, into the output
  block, the finishing step of the accumulator it has just written. Each store covers its whole 1024 x 1024 buffer,
  so what a buffer holds afterwards is the last value stored there.
-/
import proofs.«133786_j84902913508067_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem zero_offsets : (![0, 0] : Fin 2 → Nat) = fun _ => 0 := funext fun a => by fin_cases a <;> rfl

/-- First stretch: the accumulator ends at the accumulate step of the zero block. -/
theorem scratch_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x1024 .f32) (x1 : Vec F S1024x1024 .f32) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x1024) zero_offsets]

/-- Middle stretch: the accumulator ends at the accumulate step of what it held. -/
theorem scratch_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x1024 .f32) (x1 : Vec F S1024x1024 .f32) (x2 : Vec F S1x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero zero_offsets]
  simp only [View.readAt_eq_ld, harg3.read_unread, harg4.read_unread, harg8.read_unread, View.ld_unit_zero (S := S1024x1024) zero_offsets]

/-- Last stretch: the accumulator ends at the accumulate step of what it held, -/
theorem scratch_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .f32) (x2 : Vec F S1x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero zero_offsets]
  simp only [View.readAt_eq_ld, harg3.read_unread, harg4.read_unread, harg8.read_unread, View.ld_unit_zero (S := S1024x1024) zero_offsets]

/-- and the output block at the finishing step of that new accumulator with this point's scale and bias rows. -/
theorem output_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .f32) (x2 : Vec F S1x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 xs0) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero zero_offsets]
  simp only [View.readAt_eq_ld, harg3.read_unread, harg4.read_unread, harg5.read_unread, harg6.read_unread, harg8.read_unread, View.ld_unit_zero (S := S1024x1024) zero_offsets, View.ld_unit_zero (S := S1x1024) zero_offsets, View.readCov_unit_zero (S := S1024x1024) _ zero_offsets]

end Cert.KernelIdeal.Pieces

end
-- ==== Proof.Steps.lean ====
/-
  The accumulator and the output block after each grid point, as the body's stored values of the point's blocks.

  The grid runs the contraction axis innermost, in four stretches. Writing `acc n` for what the accumulator holds
  after point `n`:
    at a point of the first stretch   acc n = accumulate (x block) (sign block) (zero block);
    at a point of a later stretch     acc n = accumulate (x block) (sign block) (acc (n - 1));
    at a point of the last stretch, moreover, the output block is finish (acc n) (scale row) (bias row).
-/
import proofs.«133786_j84902913508067_1_alg».proof.Proof.Pieces

set_option maxRecDepth 16384

noncomputable section

namespace Cert.KernelIdeal.Steps

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The blocks the body reads at point `t`, at their literal types. -/
abbrev xblk (c : Dev nD) (t : Fin cfg0.N) : Vec F S1024x1024 .f32 := iblk m c 0 t
abbrev wblk (c : Dev nD) (t : Fin cfg0.N) : Vec F S1024x1024 .f32 := iblk m c 1 t
abbrev scaleRow (c : Dev nD) (t : Fin cfg0.N) : Vec F S1x1024 .f32 := iblk m c 2 t
abbrev biasRow (c : Dev nD) (t : Fin cfg0.N) : Vec F S1x1024 .f32 := iblk m c 3 t

/-- What the accumulator holds after point `n`. -/
abbrev accAfter (c : Dev nD) (n : ℕ) (h : n < cfg0.N) : Vec F S1024x1024 .f32 := (outsAt0 m c n h).2
/-- What the output's staging block holds after point `n`. -/
abbrev outAfter (c : Dev nD) (n : ℕ) (h : n < cfg0.N) : Vec F S1024x1024 .f32 := (outsAt0 m c n h).1

theorem acc_first (c : Dev nD) (t : Fin cfg0.N) (h0 : t.val % 4 = 0) (h1 : ¬t.val % 4 = 3) :
    accAfter m c t.val t.isLt = k0_pay2 (xblk m c t) (wblk m c t) (k0_pay1 (F := F)) := by
  show (outsAt0 m c t.val t.isLt).2 = _
  rw [outsAt0_A m c t h0 h1]
  dsimp only
  exact scratch_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem acc_middle (c : Dev nD) (t : Fin cfg0.N) (h0 : ¬t.val % 4 = 0) (h1 : ¬t.val % 4 = 3) :
    accAfter m c t.val t.isLt
      = k0_pay2 (xblk m c t) (wblk m c t) (accAfter m c (t.val - 1) (Nat.lt_of_le_of_lt (Nat.sub_le _ _) t.isLt)) := by
  show (outsAt0 m c t.val t.isLt).2 = _
  rw [outsAt0_B m c t h0 h1]
  dsimp only
  exact scratch_middle (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem acc_last (c : Dev nD) (t : Fin cfg0.N) (h0 : ¬t.val % 4 = 0) (h1 : t.val % 4 = 3) :
    accAfter m c t.val t.isLt
      = k0_pay2 (xblk m c t) (wblk m c t) (accAfter m c (t.val - 1) (Nat.lt_of_le_of_lt (Nat.sub_le _ _) t.isLt)) := by
  show (outsAt0 m c t.val t.isLt).2 = _
  rw [outsAt0_C m c t h0 h1]
  dsimp only
  exact scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem out_last (c : Dev nD) (t : Fin cfg0.N) (h0 : ¬t.val % 4 = 0) (h1 : t.val % 4 = 3) :
    outAfter m c t.val t.isLt = k0_pay3 (accAfter m c t.val t.isLt) (scaleRow m c t) (biasRow m c t) := by
  rw [acc_last m c t h0 h1]
  show (outsAt0 m c t.val t.isLt).1 = _
  rw [outsAt0_C m c t h0 h1]
  dsimp only
  exact output_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.KernelIdeal.Steps

end
-- ==== Proof.Payloads.lean ====
/-
  The three values the kernel body stores, read at one index over the extended reals.

  * the reset block is zero everywhere;
  * the accumulate step leaves, at row `p` and column `q` of the 1024 x 1024 accumulator, the old entry plus the
    inner product over this stretch of the contraction axis of row `p` of the `x` block and row `q` of the `sign`
    block (the change of format to bf16 before the product is the identity on extended reals, and the product into
    a zero accumulator is the plain sum);
  * the last step multiplies entry `(p, q)` by the scale of column `q` and adds the bias of column `q`
    (each a one-row block broadcast down the rows).
-/
import proofs.«133786_j84902913508067_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices: output `(p, q)`, contraction position `k`, reads `x (p, k)` and `sign (q, k)` -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at `(p, q)`: the inner product of row `p` of the left block and row
    `q` of the right block. -/
theorem product_apply {φ₁ φ₂ : FTy} (x : FVec Ideal S1024x1024 φ₁) (s : FVec Ideal S1024x1024 φ₂) (p q : Fin 1024) :
    matmul dot_S1024x1024_S1024x1024_S1024x1024_1_1_0_0_n_n none x s (constant S1024x1024 .f32 0x00000000#32) (ix2 p q)
      = ∑ l : Fin 1024, x (ix2 p l) * s (ix2 q l) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The three stored values at an index -/

/-- The reset block is zero at every index. -/
theorem reset_apply (j : S1024x1024.Idx) : k0_pay1 (F := Ideal) j = 0 := by
  unfold k0_pay1
  rw [shapeCast_self]
  exact Ideal.ofBits_zero_f32

/-- The accumulate step at `(p, q)`: the old entry plus this stretch's inner product. -/
theorem accumulate_apply (x s acc : Vec Ideal S1024x1024 .f32) (p q : Fin 1024) :
    k0_pay2 (F := Ideal) x s acc (ix2 p q) = acc (ix2 p q) + ∑ l : Fin 1024, x (ix2 p l) * s (ix2 q l) := by
  unfold k0_pay2
  rw [shapeCast_self, shapeCast_self]
  show acc (ix2 p q) + matmul (F := Ideal) dot_S1024x1024_S1024x1024_S1024x1024_1_1_0_0_n_n none _ _ _ (ix2 p q) = _
  rw [product_apply]
  rfl

/-- The last step at `(p, q)`: the accumulator entry times the scale of column `q`, plus the bias of column `q`. -/
theorem finish_apply (a : Vec Ideal S1024x1024 .f32) (sc bi : Vec Ideal S1x1024 .f32) (p q : Fin 1024) :
    k0_pay3 (F := Ideal) a sc bi (ix2 p q) = a (ix2 p q) * sc (ix2 (0 : Fin 1) q) + bi (ix2 (0 : Fin 1) q) := by
  unfold k0_pay3
  rw [shapeCast_self, shapeCast_self]
  show a (ix2 p q) * broadcastTo S1024x1024 sc _ (ix2 p q) + broadcastTo S1024x1024 bi _ (ix2 p q) = _
  rw [broadcastTo_1b_ab_apply, broadcastTo_1b_ab_apply]

end Cert.KernelIdeal.Payload

end
-- ==== Proof.BlockSum.lean ====
/-
  A contraction over an axis of length 4096 taken in four consecutive stretches of 1024.

  The kernel adds the four stretches one after the other into an accumulator that starts at zero; the reference
  sums the whole axis at once. In an additive commutative monoid (the extended reals are one) the running total
  after stretch `k` is the sum of the first `1024 * (k + 1)` terms, and after the last stretch that is the whole sum.
  No finiteness is used: only associativity of `+`.
-/
import Mathlib.Algebra.BigOperators.Fin
import Mathlib.Algebra.BigOperators.Group.Finset.Basic

namespace Cert.SignLinear

open Finset

variable {M : Type*} [AddCommMonoid M]

/-- The sum of the first `1024 * (k + 1)` terms of `f`: the accumulator after stretch `k`. -/
def partialSum (f : ℕ → M) (k : ℕ) : M := ∑ l ∈ range (1024 * (k + 1)), f l

/-- Stretch 0 added to zero is the first partial sum. -/
theorem partialSum_first (f : ℕ → M) : (0 : M) + ∑ l : Fin 1024, f (1024 * 0 + l.val) = partialSum f 0 := by
  unfold partialSum
  rw [zero_add, Finset.sum_range]
  exact Finset.sum_congr rfl fun l _ => by rw [Nat.mul_zero, Nat.zero_add]

/-- Stretch `k + 1` added to the partial sum through stretch `k` is the partial sum through stretch `k + 1`. -/
theorem partialSum_next (f : ℕ → M) (k : ℕ) :
    partialSum f k + ∑ l : Fin 1024, f (1024 * (k + 1) + l.val) = partialSum f (k + 1) := by
  unfold partialSum
  rw [show 1024 * (k + 1 + 1) = 1024 * (k + 1) + 1024 from by omega, Finset.sum_range_add]
  exact congrArg (_ + ·) (Finset.sum_range fun x => f (1024 * (k + 1) + x)).symm

/-- After the fourth stretch the partial sum is the sum over the whole axis. -/
theorem partialSum_last (f : ℕ → M) : partialSum f 3 = ∑ L : Fin 4096, f L.val := by
  unfold partialSum
  exact Finset.sum_range f

end Cert.SignLinear
-- ==== Proof.Accumulator.lean ====
/-
  The accumulator after every grid point, entry by entry, over the extended reals.

  Grid point `n` has coordinates `(n / 16, n / 4 % 4, n % 4)`: a block of 1024 rows of `x`, a block of 1024 rows of
  `sign`, and a stretch of 1024 positions of the contraction axis. After point `n`, entry `(p, q)` of the accumulator
  is the sum, over the first `1024 * (n % 4 + 1)` contraction positions `l`, of
  `x[1024 * (n / 16) + p, l] * sign[1024 * (n / 4 % 4) + q, l]`. By induction on the point: the first stretch starts
  from zero, each later stretch adds its 1024 products to what the point before left.
-/
import proofs.«133786_j84902913508067_1_alg».proof.Proof.Steps
import proofs.«133786_j84902913508067_1_alg».proof.Proof.Payloads
import proofs.«133786_j84902913508067_1_alg».proof.Proof.BlockSum

set_option maxRecDepth 16384

noncomputable section

namespace Cert.KernelIdeal.Acc

open Cert.KernelIdeal Cert.KernelIdeal.Gen Cert.KernelIdeal.Steps Cert.KernelIdeal.Payload Cert.SignLinear
open Idealize.ShloMosaic Idealize.ShloMosaic.TcCoe Idealize.ShloMosaic.ValueIdx Idealize.SL.Sem

variable (m : (ℓ : Loc nD τ sig) → Buf (Elt Ideal) ℓ)

/-! ## The arrays the region finds, and an entry of a matrix at natural-number coordinates -/

abbrev xArr (c : Dev nD) : Vec Ideal S8192x4096 .f32 := V m c main_v0
abbrev wArr (c : Dev nD) : Vec Ideal S4096x4096 .f32 := V m c main_arg1
abbrev scaleArr (c : Dev nD) : Vec Ideal S1x4096 .f32 := V m c main_v1
abbrev biasArr (c : Dev nD) : Vec Ideal S1x4096 .f32 := V m c main_v2

/-- Entry `(r, l)` of a matrix, zero outside it. -/
def entry {a b : ℕ} (A : Vec Ideal ⟨2, ![a, b]⟩ .f32) (r l : ℕ) : EReal :=
  if h : r < a ∧ l < b then A (ix2 ⟨r, h.1⟩ ⟨l, h.2⟩) else 0

theorem entry_of_lt {a b : ℕ} (A : Vec Ideal ⟨2, ![a, b]⟩ .f32) (r l : ℕ) (hr : r < a) (hl : l < b) :
    entry A r l = A (ix2 ⟨r, hr⟩ ⟨l, hl⟩) := dif_pos ⟨hr, hl⟩

/-- The product the contraction sums at position `l`, for row `r` of `x` and row `o` of `sign`. -/
def term (c : Dev nD) (r o l : ℕ) : EReal := entry (xArr m c) r l * entry (wArr m c) o l

/-! ## Where each window's block sits, decided over the 128 grid points -/

theorem block_index : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-- The `x` block at point `t`: rows `1024 * (t / 16) + p`, contraction positions `1024 * (t % 4) + l`. -/
theorem xblk_apply (c : Dev nD) (t : Fin cfg0.N) (p l : Fin 1024) :
    xblk m c t (ix2 p l) = entry (xArr m c) (1024 * (t.val / 16) + p.val) (1024 * (t.val % 4) + l.val) := by
  have hN : t.val < 128 := lt_of_lt_of_eq t.isLt N_0
  have hp := p.isLt
  have hl := l.isLt
  rw [entry_of_lt _ _ _ (by omega) (by omega)]
  obtain ⟨e0, e1, -⟩ := block_index t
  show V m c main_v0 (((cfg0.win 0).blk t).view.emb (ix2 p l)) = V m c main_v0 _
  refine congrArg (V m c main_v0) (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * l.val = 1024 * (t.val % 4) + l.val; omega

/-- The `sign` block at point `t`: rows `1024 * (t / 4 % 4) + q`, contraction positions `1024 * (t % 4) + l`. -/
theorem wblk_apply (c : Dev nD) (t : Fin cfg0.N) (q l : Fin 1024) :
    wblk m c t (ix2 q l) = entry (wArr m c) (1024 * (t.val / 4 % 4) + q.val) (1024 * (t.val % 4) + l.val) := by
  have hN : t.val < 128 := lt_of_lt_of_eq t.isLt N_0
  have hq := q.isLt
  have hl := l.isLt
  rw [entry_of_lt _ _ _ (by omega) (by omega)]
  obtain ⟨-, -, e0, e1, -⟩ := block_index t
  show V m c main_arg1 (((cfg0.win 1).blk t).view.emb (ix2 q l)) = V m c main_arg1 _
  refine congrArg (V m c main_arg1) (funext fun a => Fin.ext ?_)
  match a with
  | ⟨0, _⟩ => show win0_1.index t (0 : Fin 2) * 1024 + 1 * q.val = 1024 * (t.val / 4 % 4) + q.val; omega
  | ⟨1, _⟩ => show win0_1.index t (1 : Fin 2) * 1024 + 1 * l.val = 1024 * (t.val % 4) + l.val; omega

/-- The scale row at point `t`: columns `1024 * (t / 4 % 4) + q` of the one-row scale array. -/
theorem scaleRow_apply (c : Dev nD) (t : Fin cfg0.N) (q : Fin 1024) :
    scaleRow m c t (ix2 (0 : Fin 1) q) = entry (scaleArr m c) 0 (1024 * (t.val / 4 % 4) + q.val) := by
  have hN : t.val < 128 := lt_of_lt_of_eq t.isLt N_0
  have hq := q.isLt
  rw [entry_of_lt _ _ _ (by omega) (by omega)]
  obtain ⟨-, -, -, -, e0, e1, -⟩ := block_index t
  show V m c main_v1 (((cfg0.win 2).blk t).view.emb (ix2 (0 : Fin 1) q)) = V m c main_v1 _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 4 % 4) + q.val; omega

/-- The bias row at point `t`: columns `1024 * (t / 4 % 4) + q` of the one-row bias array. -/
theorem biasRow_apply (c : Dev nD) (t : Fin cfg0.N) (q : Fin 1024) :
    biasRow m c t (ix2 (0 : Fin 1) q) = entry (biasArr m c) 0 (1024 * (t.val / 4 % 4) + q.val) := by
  have hN : t.val < 128 := lt_of_lt_of_eq t.isLt N_0
  have hq := q.isLt
  rw [entry_of_lt _ _ _ (by omega) (by omega)]
  obtain ⟨-, -, -, -, -, -, e0, e1, -⟩ := block_index t
  show V m c main_v2 (((cfg0.win 3).blk t).view.emb (ix2 (0 : Fin 1) q)) = V m c main_v2 _
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val / 4 % 4) + q.val; omega

/-! ## One stretch's inner product, and the invariant -/

/-- The inner product the accumulate step adds at point `t`: the products at this stretch's 1024 positions. -/
theorem stretch_sum (c : Dev nD) (t : Fin cfg0.N) (p q : Fin 1024) :
    ∑ l : Fin 1024, xblk m c t (ix2 p l) * wblk m c t (ix2 q l)
      = ∑ l : Fin 1024, term m c (1024 * (t.val / 16) + p.val) (1024 * (t.val / 4 % 4) + q.val) (1024 * (t.val % 4) + l.val) :=
  Finset.sum_congr rfl fun l _ => by rw [xblk_apply, wblk_apply]; rfl

/-- THE INVARIANT: after point `n` the accumulator's entry `(p, q)` is the partial sum through stretch `n % 4`. -/
theorem acc_apply (c : Dev nD) : ∀ (n : ℕ) (h : n < cfg0.N) (p q : Fin 1024),
    accAfter m c n h (ix2 p q)
      = partialSum (term m c (1024 * (n / 16) + p.val) (1024 * (n / 4 % 4) + q.val)) (n % 4)
  | 0, h, p, q => by
    rw [acc_first m c ⟨0, h⟩ rfl (by show ¬(0 % 4 = 3); decide), accumulate_apply, reset_apply, stretch_sum]
    exact partialSum_first _
  | n + 1, h, p, q => by
    by_cases h0 : (n + 1) % 4 = 0
    · have h1 : ¬(n + 1) % 4 = 3 := by omega
      rw [acc_first m c ⟨n + 1, h⟩ h0 h1, accumulate_apply, reset_apply, stretch_sum]
      show (0 : EReal) + ∑ l : Fin 1024, term m c _ _ (1024 * ((n + 1) % 4) + l.val) = _
      rw [h0]
      exact partialSum_first _
    · have ih := acc_apply c n (Nat.lt_of_succ_lt h) p q
      have ea : n / 16 = (n + 1) / 16 := by omega
      have eb : n / 4 % 4 = (n + 1) / 4 % 4 := by omega
      have ek : (n + 1) % 4 = n % 4 + 1 := by omega
      rw [ea, eb] at ih
      have hstep : accAfter m c (n + 1) h
          = k0_pay2 (xblk m c ⟨n + 1, h⟩) (wblk m c ⟨n + 1, h⟩) (accAfter m c n (Nat.lt_of_succ_lt h)) := by
        by_cases h1 : (n + 1) % 4 = 3
        · exact acc_last m c ⟨n + 1, h⟩ h0 h1
        · exact acc_middle m c ⟨n + 1, h⟩ h0 h1
      rw [hstep, accumulate_apply, ih, stretch_sum]
      show partialSum _ (n % 4) + ∑ l : Fin 1024, term m c _ _ (1024 * ((n + 1) % 4) + l.val) = partialSum _ ((n + 1) % 4)
      rw [ek]
      exact partialSum_next _ _

end Cert.KernelIdeal.Acc

end
-- ==== Proof.Spec.lean ====
/-
  The function both programs compute, over the extended reals, index by index:

      y[b, s, o] = (∑ i, x[b, s, i] * sign[o, i]) * scale[o] + bias[o]

  for x of shape [4, 2048, 4096], sign of shape [4096, 4096], scale and bias of shape [4096].
-/
import Idealize.ShloMosaic.Lib.ValueIdx

noncomputable section

namespace Cert.SignLinear

open Idealize.ShloMosaic Idealize.ShloMosaic.ValueIdx

/-- The sign-weighted linear layer with a per-output scale and bias. -/
def signLinear (x : Vec Ideal ⟨3, ![4, 2048, 4096]⟩ .f32) (w : Vec Ideal ⟨2, ![4096, 4096]⟩ .f32)
    (sc bi : Vec Ideal ⟨1, ![4096]⟩ .f32) : Vec Ideal ⟨3, ![4, 2048, 4096]⟩ .f32 :=
  fun i => (∑ L : Fin 4096, x (ix3 (i 0) (i 1) L) * w (ix2 (i 2) L)) * sc (ix1 (i 2)) + bi (ix1 (i 2))

end Cert.SignLinear

end
-- ==== Proof.Result.lean ====
/-
  The kernel's result array, and the run.

  At the last stretch of the contraction axis (points `≡ 3 mod 4`) the body finishes the accumulator — entry `(p, q)`
  times the scale of its column plus the bias of its column — and the pipeline writes that block back at block
  `(n / 16, n / 4 % 4)` of the [8192, 4096] result. Those 32 blocks tile the result, so it ends holding, at row `r`
  and column `o`, the whole contraction of row `r` of the flattened `x` with row `o` of `sign`, times `scale[o]`, plus
  `bias[o]`. Around the region @main only reshapes: `x` to [8192, 4096] (row `2048 * b + s`), `scale` and `bias` to
  one-row matrices, and the result back to [4, 2048, 4096]. Read through those, the result is the specification.
-/
import proofs.«133786_j84902913508067_1_alg».proof.Proof.Accumulator
import proofs.«133786_j84902913508067_1_alg».proof.Proof.Spec
import Idealize.ShloMosaic.Lib.StableHlo.Run

set_option maxRecDepth 16384

noncomputable section

namespace Cert.KernelIdeal.Result

open Cert.KernelIdeal Cert.KernelIdeal.Gen Cert.KernelIdeal.Steps Cert.KernelIdeal.Payload Cert.KernelIdeal.Acc Cert.SignLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The [8192, 4096] result of the region -/

/-- Row `r`, column `o`: the whole contraction, scaled and shifted by column. -/
def flatResult (c : Dev nD) : Vec Ideal S8192x4096 .f32 := fun i =>
  partialSum (term m c (i 0).val (i 1).val) 3 * entry (scaleArr m c) 0 (i 1).val + entry (biasArr m c) 0 (i 1).val

/-- What a last-stretch point writes back is its block of `flatResult`. -/
theorem flushed_eq (c : Dev nD) (t : Fin cfg0.N) (hf : (cfg0.win 4).flush t = true) :
    (dats m 0 c).flushed 4 t = ((cfg0.win 4).blk t).view.read (Elt Ideal) (flatResult m c) := by
  have h3 : t.val % 4 = 3 := (flush0_4 t).mp hf
  have h0 : ¬t.val % 4 = 0 := by omega
  have hN : t.val < 128 := lt_of_lt_of_eq t.isLt N_0
  show (cfg0.win 4).cut (grid0.coords t) ((dats m 0 c).after 4 t) = _
  rw [after0_4]
  funext j
  obtain ⟨p, q, rfl⟩ : ∃ (p q : Fin 1024), j = ix2 p q := ⟨j 0, j 1, eq_ix2 (n0 := 1024) (n1 := 1024) j⟩
  show outAfter m c t.val t.isLt (ix2 p q) = flatResult m c (((cfg0.win 4).blk t).view.emb (ix2 p q))
  rw [out_last m c t h0 h3, finish_apply, acc_apply, scaleRow_apply, biasRow_apply, h3]
  obtain ⟨-, -, -, -, -, -, -, -, e0, e1⟩ := block_index t
  have hp := p.isLt
  have hq := q.isLt
  have he : ((cfg0.win 4).blk t).view.emb (ix2 p q)
      = ix2 (⟨1024 * (t.val / 16) + p.val, by omega⟩ : Fin 8192) (⟨1024 * (t.val / 4 % 4) + q.val, by omega⟩ : Fin 4096) :=
    funext fun a => Fin.ext (by
      match a with
      | ⟨0, _⟩ => show win0_4.index t (0 : Fin 2) * 1024 + 1 * p.val = 1024 * (t.val / 16) + p.val; omega
      | ⟨1, _⟩ => show win0_4.index t (1 : Fin 2) * 1024 + 1 * q.val = 1024 * (t.val / 4 % 4) + q.val; omega)
  rw [he]
  rfl

/-- An index of the result is in point `t`'s block iff each coordinate is in the block's range on its axis. -/
theorem mem_block (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the result lies in the block some last-stretch point writes back: the point whose row block is
    `i 0 / 1024` and whose column block is `i 1 / 1024`. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  have ht : 16 * ((i 0).val / 1024) + 4 * ((i 1).val / 1024) + 3 < cfg0.N := by omega
  refine ⟨⟨16 * ((i 0).val / 1024) + 4 * ((i 1).val / 1024) + 3, ht⟩, (flush0_4 _).mpr (by show (16 * ((i 0).val / 1024) + 4 * ((i 1).val / 1024) + 3) % 4 = 3; omega), ?_⟩
  rw [mem_block]
  obtain ⟨-, -, -, -, -, -, -, -, e0, e1⟩ := block_index ⟨16 * ((i 0).val / 1024) + 4 * ((i 1).val / 1024) + 3, ht⟩
  have e0' : win0_4.index ⟨16 * ((i 0).val / 1024) + 4 * ((i 1).val / 1024) + 3, ht⟩ (0 : Fin 2) = (16 * ((i 0).val / 1024) + 4 * ((i 1).val / 1024) + 3) / 16 := e0
  have e1' : win0_4.index ⟨16 * ((i 0).val / 1024) + 4 * ((i 1).val / 1024) + 3, ht⟩ (1 : Fin 2) = (16 * ((i 0).val / 1024) + 4 * ((i 1).val / 1024) + 3) / 4 % 4 := e1
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 1024 ≤ (i 1).val ∧ (i 1).val < win0_4.index _ (1 : Fin 2) * 1024 + 1024; omega

/-- So the region's result array ends holding `flatResult`. -/
theorem final_flat (c : Dev nD) : (dats m 0 c).arrAt 4 cfg0.N = flatResult m c :=
  (dats m 0 c).arrAt_eq_of_cover 4 (flatResult m c) (flushed_eq m c) covered

/-! ## @main before the region: three reshapes -/

/-- The region's first operand is `x` flattened to [8192, 4096]. -/
theorem xArr_eq (c : Dev nD) :
    xArr m c = shapeCast S8192x4096 (m ((c.tc : Thread nD τ).loc main_arg0)) shapeCasts_S4x2048x4096_S8192x4096 := by
  show StableHlo.after hostOps0 (fun b => m (c, b)) (Proc.devRef .tc main_v0) = _
  after_results
  rfl

/-- Its third operand is `scale` as a one-row matrix, -/
theorem scaleArr_eq (c : Dev nD) :
    scaleArr m c = shapeCast S1x4096 (m ((c.tc : Thread nD τ).loc main_arg2)) shapeCasts_S4096_S1x4096 := by
  show StableHlo.after hostOps0 (fun b => m (c, b)) (Proc.devRef .tc main_v1) = _
  after_results
  rfl

/-- its fourth `bias` as a one-row matrix, -/
theorem biasArr_eq (c : Dev nD) :
    biasArr m c = shapeCast S1x4096 (m ((c.tc : Thread nD τ).loc main_arg3)) shapeCasts_S4096_S1x4096 := by
  show StableHlo.after hostOps0 (fun b => m (c, b)) (Proc.devRef .tc main_v2) = _
  after_results
  rfl

/-- and its second is `sign` itself. -/
theorem wArr_eq (c : Dev nD) : wArr m c = (m ((c.tc : Thread nD τ).loc main_arg1)) := V_main_arg1 m c

/-- Row `2048 * b + s` of the flattened `x` is row `(b, s)` of `x`. -/
theorem xArr_entry (c : Dev nD) (b : Fin 4) (s : Fin 2048) (l : Fin 4096) :
    entry (xArr m c) (2048 * b.val + s.val) l.val = (m ((c.tc : Thread nD τ).loc main_arg0)) (ix3 b s l) := by
  have hb := b.isLt
  have hs := s.isLt
  rw [entry_of_lt _ _ _ (by omega) l.isLt, xArr_eq]
  refine shapeCast_apply _ _ _ _ ?_
  refine (Shape.rowMajor_val_three (d := ![4, 2048, 4096]) (ix3 b s l)).trans ?_
  rw [Shape.rowMajor_val_two]
  show (b.val * 2048 + s.val) * 4096 + l.val = (2048 * b.val + s.val) * 4096 + l.val
  omega

theorem wArr_entry (c : Dev nD) (o l : Fin 4096) :
    entry (wArr m c) o.val l.val = (m ((c.tc : Thread nD τ).loc main_arg1)) (ix2 o l) := by
  rw [entry_of_lt _ _ _ o.isLt l.isLt, wArr_eq]

theorem scaleArr_entry (c : Dev nD) (o : Fin 4096) :
    entry (scaleArr m c) 0 o.val = (m ((c.tc : Thread nD τ).loc main_arg2)) (ix1 o) := by
  rw [entry_of_lt _ _ _ (by omega) o.isLt, scaleArr_eq]
  refine shapeCast_apply _ _ _ _ ?_
  refine (Shape.rowMajor_val_one (d := ![4096]) (ix1 o)).trans ?_
  rw [Shape.rowMajor_val_two]
  show o.val = 0 * 4096 + o.val
  omega

theorem biasArr_entry (c : Dev nD) (o : Fin 4096) :
    entry (biasArr m c) 0 o.val = (m ((c.tc : Thread nD τ).loc main_arg3)) (ix1 o) := by
  rw [entry_of_lt _ _ _ (by omega) o.isLt, biasArr_eq]
  refine shapeCast_apply _ _ _ _ ?_
  refine (Shape.rowMajor_val_one (d := ![4096]) (ix1 o)).trans ?_
  rw [Shape.rowMajor_val_two]
  show o.val = 0 * 4096 + o.val
  omega

/-! ## @main after the region: the result reshaped to [4, 2048, 4096] -/

/-- @main's result is the region's result array reshaped. -/
theorem tail_eq (c : Dev nD) :
    Pipeline.afterTail₀ cfgs (dats m) 0 (V0 m) [hostOps1] c main_v4
      = shapeCast S4x2048x4096 (flatResult m c) shapeCasts_S8192x4096_S4x2048x4096 := by
  unfold Pipeline.afterTail₀
  show StableHlo.after hostOps1 _ (Proc.devRef .tc main_v4) = _
  after_results
  exact congrArg (fun v => shapeCast S4x2048x4096 v shapeCasts_S8192x4096_S4x2048x4096)
    ((Pipeline.withArrays_arr spec0 launch0.win.arr_inj c _ _ 4).trans (final_flat m c))

/-- Read through the reshapes, the result is the specification of the four arguments. -/
theorem value_eq (c : Dev nD) :
    shapeCast S4x2048x4096 (flatResult m c) shapeCasts_S8192x4096_S4x2048x4096
      = signLinear (m ((c.tc : Thread nD τ).loc main_arg0)) (m ((c.tc : Thread nD τ).loc main_arg1)) (m ((c.tc : Thread nD τ).loc main_arg2)) (m ((c.tc : Thread nD τ).loc main_arg3)) := by
  funext i
  have hb : (i 0).val < 4 := (i 0).isLt
  have hs : (i 1).val < 2048 := (i 1).isLt
  have ho : (i 2).val < 4096 := (i 2).isLt
  rw [shapeCast_apply (flatResult m c) shapeCasts_S8192x4096_S4x2048x4096 i
    (ix2 (⟨2048 * (i 0).val + (i 1).val, by omega⟩ : Fin 8192) (⟨(i 2).val, ho⟩ : Fin 4096)) (by
      rw [Shape.rowMajor_val_two, Shape.rowMajor_val_three]
      show (2048 * (i 0).val + (i 1).val) * 4096 + (i 2).val = ((i 0).val * 2048 + (i 1).val) * 4096 + (i 2).val
      omega)]
  show partialSum (term m c (2048 * (i 0).val + (i 1).val) (i 2).val) 3 * entry (scaleArr m c) 0 (i 2).val
      + entry (biasArr m c) 0 (i 2).val = _
  rw [partialSum_last, scaleArr_entry m c (i 2), biasArr_entry m c (i 2)]
  unfold signLinear
  refine congrArg (fun z => z * _ + _) (Finset.sum_congr rfl fun L _ => ?_)
  show entry (xArr m c) (2048 * (i 0).val + (i 1).val) L.val * entry (wArr m c) (i 2).val L.val = _
  rw [xArr_entry m c (i 0) (i 1) L, wArr_entry m c (i 2) L]

/-! ## The run -/

/-- Every weakly fair execution of @main at the extended reals terminates with its result at the specification of
    the four arguments' launch contents, and the arguments unchanged. -/
theorem run : θ_run defs (onTc (τ := τ) (main (F := Ideal))) ⟨m, fun _ => 0, ρ⟩ fun r => ∀ c : Dev nD,
      r.2.mem ((c.tc : Thread nD τ).loc main_v4)
        = signLinear (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans ((tail_eq m c).trans (value_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Reference.lean ====
/-
  The reference computes the specification: its contraction of the last axis of `x` with the last axis of `sign`,
  the two broadcasts of `scale` and of `bias` along the leading axes, the product and the sum, read at one index.
-/
import proofs.«133786_j84902913508067_1_alg».proof.Proof.Gen.ReferenceIdeal.Read
import proofs.«133786_j84902913508067_1_alg».proof.Proof.Spec

noncomputable section

namespace Cert.ReferenceIdeal.RefValue

open Cert.ReferenceIdeal Cert.ReferenceIdeal.Read Cert.SignLinear Idealize.ShloMosaic Idealize.ShloMosaic.ValueIdx

/-- At output index `i = (b, s, o)` and contraction position `k` the contraction reads `x (b, s, k)` and `sign (o, k)`;
    both broadcast chains read their vector at `o`. -/
theorem reference_eq (x0 : Vec Ideal S4x2048x4096 .f32) (x1 : Vec Ideal S4096x4096 .f32) (x2 x3 : Vec Ideal S4096 .f32) :
    val_main_v6 (F := Ideal) x0 x1 x2 x3 = signLinear x0 x1 x2 x3 := by
  funext i
  have el : ∀ k : Fin 4096, lidx_main_v0 i k = ix3 (i 0) (i 1) k := fun k => funext fun a => Fin.ext (by
    match a with | ⟨0, _⟩ => rfl | ⟨1, _⟩ => rfl | ⟨2, _⟩ => rfl)
  have er : ∀ k : Fin 4096, ridx_main_v0 i k = ix2 (i 2) k := fun k => funext fun a => Fin.ext (by
    match a with | ⟨0, _⟩ => rfl | ⟨1, _⟩ => rfl)
  have e2 : idx_main_v1 (idx_main_v2 i) = ix1 (i 2) := funext fun a => Fin.ext (by match a with | ⟨0, _⟩ => rfl)
  have e3 : idx_main_v4 (idx_main_v5 i) = ix1 (i 2) := funext fun a => Fin.ext (by match a with | ⟨0, _⟩ => rfl)
  rw [val_main_v6_apply, val_main_v3_apply, val_main_v0_apply, val_main_v2_apply, val_main_v1_apply, val_main_v5_apply,
    val_main_v4_apply]
  simp only [el, er, e2, e3, Ideal.addf_def, Ideal.mulf_def]
  rfl

end Cert.ReferenceIdeal.RefValue

end
-- ==== Proof.lean ====
/-
  A linear layer with sign weights: y[b, s, o] = (∑ i, x[b, s, i] * sign[o, i]) * scale[o] + bias[o],
  for x of shape [4, 2048, 4096], sign of shape [4096, 4096], scale and bias of shape [4096].

  The kernel flattens x to [8192, 4096] and walks a grid of 8 x 4 x 4 points: a block of 1024 rows of x, a block of 1024
  rows of sign, and — innermost — a stretch of 1024 positions of the contraction axis. At the first stretch it zeroes a
  1024 x 1024 accumulator; at every stretch it adds the product of the x block with the transposed sign block (the
  operands changed to bf16 first, which is the identity on extended reals); at the last stretch it multiplies the
  accumulator by the scale of each column, adds the bias of each column, and the block is written back. The result is
  reshaped to [4, 2048, 4096]. The reference contracts the whole axis at once, then multiplies by the broadcast scale
  and adds the broadcast bias.

  Over the extended reals the two agree because a sum of 4096 terms is the sum of its four consecutive stretches of
  1024 added in order from zero: only associativity of addition, so the inputs' finiteness is not used.
    * Payloads: the three values the body stores, at an index (zero; old entry plus the stretch's inner product;
      entry times scale plus bias).
    * Pieces, Steps: what each control case of the body leaves in the accumulator and in the output block.
    * BlockSum, Accumulator: by induction on the grid point, the accumulator after point n holds the partial sums
      through stretch n mod 4 of the rows of x and of sign that the point's blocks are.
    * Result: the 32 written-back blocks tile the flat result; read through the reshapes it is the specification.
    * Reference: the reference's operations read at an index are the specification.
  The three programs' termination and unchanged arguments are the generated frames (the reference's is its generated
  run with the result dropped); the kernel and its idealization have the same text, so nothing is owed for that.
-/
import proofs.«133786_j84902913508067_1_alg».proof.Defs
import proofs.«133786_j84902913508067_1_alg».proof.Proof.Gen.Kernel
import proofs.«133786_j84902913508067_1_alg».proof.Proof.Gen.Kernel.Frame
import proofs.«133786_j84902913508067_1_alg».proof.Proof.Gen.KernelIdeal
import proofs.«133786_j84902913508067_1_alg».proof.Proof.Gen.KernelIdeal.Frame
import proofs.«133786_j84902913508067_1_alg».proof.Proof.Gen.ReferenceIdeal
import proofs.«133786_j84902913508067_1_alg».proof.Proof.Gen.ReferenceIdeal.Run
import proofs.«133786_j84902913508067_1_alg».proof.Proof.Gen.ReferenceIdeal.Read
import proofs.«133786_j84902913508067_1_alg».proof.Proof.Gen.Pre_finite_inputs
import proofs.«133786_j84902913508067_1_alg».proof.Proof.Result
import proofs.«133786_j84902913508067_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the specification of the arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.reference_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
